-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x2048x1408 : Shape := ⟨3, ![8, 2048, 1408]⟩
abbrev S8x1408x2048 : Shape := ⟨3, ![8, 1408, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn_part1 {F : FTy → Type} [FloatOps F] (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  main_v18

def fn {F : FTy → Type} [FloatOps F] (main_arg0 : FVec F S8x1024x2048 .f32) (main_arg1 : FVec F S8x2048x1408 .f32) (main_arg2 : FVec F S8x2048x1408 .f32) (main_arg3 : FVec F S8x1408x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x2048x1408 .f32 := Host.absf main_arg1
  let main_cst_0 : FVec F S_ .f32 := constant S_ .f32 0x7F800000#32
  let main_v5 : FVec F S8x2048x1408 .f32 := broadcastInDim S8x2048x1408 ![] bcast_S_S8x2048x1408 main_cst_0
  let main_v6 : IVec S8x2048x1408 1 := cmpf .olt main_v4 main_v5
  let main_c_1 : IVec S_ 1 := constantI S_ 1 1#1
  let main_v7 : IVec S_ 1 := (fun x v => Host.reduce IntOp.andi x v reducesTo_S8x2048x1408_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S8x1408x2048 .f32 := Host.absf main_arg3
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_v13 main_v16
-- ==== Kernel.lean ====
abbrev S8x1024x2048 : Shape := ⟨3, ![8, 1024, 2048]⟩
abbrev S8x2048x1408 : Shape := ⟨3, ![8, 2048, 1408]⟩
abbrev S8x1408x2048 : Shape := ⟨3, ![8, 1408, 2048]⟩
abbrev S_ : Shape := ⟨0, ![]⟩
abbrev S8x2048x1536 : Shape := ⟨3, ![8, 2048, 1536]⟩
abbrev S8x1536x2048 : Shape := ⟨3, ![8, 1536, 2048]⟩
abbrev S1x128x2048 : Shape := ⟨3, ![1, 128, 2048]⟩
abbrev S1x2048x256 : Shape := ⟨3, ![1, 2048, 256]⟩
abbrev S1x256x2048 : Shape := ⟨3, ![1, 256, 2048]⟩
abbrev S128x2048 : Shape := ⟨2, ![128, 2048]⟩
abbrev S2048x256 : Shape := ⟨2, ![2048, 256]⟩
abbrev S128x256 : Shape := ⟨2, ![128, 256]⟩
abbrev S256x2048 : Shape := ⟨2, ![256, 2048]⟩

abbrev nBuf : Space → Nat
  | .hbm => 14
  | .vmem => 11
  | .smem => 0
  | _ => 0

abbrev bufTy : (tb : Table) → Fin (tcTables nBuf tb) → BufTy
  | .hbm, ⟨0, _⟩ => ⟨S8x1024x2048, .f32⟩
  | .hbm, ⟨1, _⟩ => ⟨S8x2048x1408, .f32⟩
  | .hbm, ⟨2, _⟩ => ⟨S8x2048x1408, .f32⟩
  | .hbm, ⟨3, _⟩ => ⟨S8x1408x2048, .f32⟩
  | .hbm, ⟨4, _⟩ => ⟨S_, .i32⟩
  | .hbm, ⟨5, _⟩ => ⟨S_, .f32⟩
  | .hbm, ⟨6, _⟩ => ⟨S8x2048x1536, .f32⟩
  | .hbm, ⟨7, _⟩ => ⟨S_, .i32⟩
  | .hbm, ⟨8, _⟩ => ⟨S_, .f32⟩
  | .hbm, ⟨9, _⟩ => ⟨S8x2048x1536, .f32⟩
  | .hbm, ⟨10, _⟩ => ⟨S_, .i32⟩
  | .hbm, ⟨11, _⟩ => ⟨S_, .f32⟩
  | .hbm, ⟨12, _⟩ => ⟨S8x1536x2048, .f32⟩
  | .hbm, ⟨13, _⟩ => ⟨S8x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x128x2048, .f32⟩
  | .local _ .vmem, ⟨9, _⟩ => ⟨S1x128x2048, .f32⟩
  | .local _ .vmem, ⟨10, _⟩ => ⟨S128x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 6], ![false, false, false]⟩

def k0_cond2 (i : grid0.Coords) : BitVec 1 :=
  let arg2 : BitVec 32 := BitVec.ofNat 32 (i 2).val
  let c5_i32 : BitVec 32 := 5#32
  let v27 : BitVec 1 := Scalar.cmpi .eq arg2 c5_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  pads_S8x2048x1408_S8x2048x1536_000_000_01280 : S8x2048x1408.Pads (![0, 0, 0] : Fin 3 → Nat) ![0, 0, 128] ![0, 0, 0] S8x2048x1536
  h_S_ : 0 < S_.numel
  pads_S8x1408x2048_S8x1536x2048_000_01280_000 : S8x1408x2048.Pads (![0, 0, 0] : Fin 3 → Nat) ![0, 128, 0] ![0, 0, 0] S8x1536x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S128x2048_S1x128x2048 : S128x2048.ShapeCasts S1x128x2048
  dot_S128x2048_S2048x256_S128x256_1_0_0_1_n_n_wf : DotDims.WF S128x2048 S2048x256 S128x256 [1] [0] [0] [1] [] []
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x1024x2048.size a
  hwx0_0 : ∀ i : grid0.Coords, EltTy.bits .f32 = 32 ∨ (Rect.block (s := S8x1024x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x1536.size a
  hwx0_1 : ∀ i : grid0.Coords, EltTy.bits .f32 = 32 ∨ (Rect.block (s := S8x2048x1536) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x1536.size a
  hwx0_2 : ∀ i : grid0.Coords, EltTy.bits .f32 = 32 ∨ (Rect.block (s := S8x2048x1536) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x1536x2048.size a
  hwx0_3 : ∀ i : grid0.Coords, EltTy.bits .f32 = 32 ∨ (Rect.block (s := S8x1536x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S8x1024x2048.size a
  hwx0_4 : ∀ i : grid0.Coords, EltTy.bits .f32 = 32 ∨ (Rect.block (s := S8x1024x2048) S1x128x2048.size (cc0_transform_4 i) (hinb0_4 i)).WholeWords (EltTy.packing .f32)

variable [Facts₀]

def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x1024x2048 : Shape := ⟨3, ![8, 1024, 2048]⟩
abbrev S8x2048x1408 : Shape := ⟨3, ![8, 2048, 1408]⟩
abbrev S8x1408x2048 : Shape := ⟨3, ![8, 1408, 2048]⟩
abbrev S8x1024x1408 : Shape := ⟨3, ![8, 1024, 1408]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x2048x1408, .f32⟩
  | .hbm, ⟨2, _⟩ => ⟨S8x2048x1408, .f32⟩
  | .hbm, ⟨3, _⟩ => ⟨S8x1408x2048, .f32⟩
  | .hbm, ⟨4, _⟩ => ⟨S8x1024x1408, .f32⟩
  | .hbm, ⟨5, _⟩ => ⟨S8x1024x1408, .f32⟩
  | .hbm, ⟨6, _⟩ => ⟨S8x1024x1408, .f32⟩
  | .hbm, ⟨7, _⟩ => ⟨S_, .f32⟩
  | .hbm, ⟨8, _⟩ => ⟨S8x1024x1408, .f32⟩
  | .hbm, ⟨9, _⟩ => ⟨S8x1024x1408, .f32⟩
  | .hbm, ⟨10, _⟩ => ⟨S_, .f32⟩
  | .hbm, ⟨11, _⟩ => ⟨S8x1024x1408, .f32⟩
  | .hbm, ⟨12, _⟩ => ⟨S8x1024x1408, .f32⟩
  | .hbm, ⟨13, _⟩ => ⟨S8x1024x1408, .f32⟩
  | .hbm, ⟨14, _⟩ => ⟨S8x1024x1408, .f32⟩
  | .hbm, ⟨15, _⟩ => ⟨S8x1024x1408, .f32⟩
  | .hbm, ⟨16, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x1024x1408 : S_.BroadcastsInDim S8x1024x1408 (![] : Fin 0 → Fin S8x1024x1408.rank)
  dot_S8x1024x2048_S8x2048x1408_S8x1024x1408_2_1_1_2_0_0_wf : DotDims.WF S8x1024x2048 S8x2048x1408 S8x1024x1408 [2] [1] [1] [2] [0] [0]
  dot_S8x1024x1408_S8x1408x2048_S8x1024x2048_2_1_1_2_0_0_wf : DotDims.WF S8x1024x1408 S8x1408x2048 S8x1024x2048 [2] [1] [1] [2] [0] [0]

variable [Facts₀]

def dot_S8x1024x2048_S8x2048x1408_S8x1024x1408_2_1_1_2_0_0 : DotDims S8x1024x2048 S8x2048x1408 S8x1024x1408 where
  lhsContracting := [2]
  rhsContracting := [1]
  lhsNonContracting := [1]
  rhsNonContracting := [2]
  lhsBatch := [0]
  rhsBatch := [0]
  wf := dot_S8x1024x2048_S8x2048x1408_S8x1024x1408_2_1_1_2_0_0_wf
def dot_S8x1024x1408_S8x1408x2048_S8x1024x2048_2_1_1_2_0_0 : DotDims S8x1024x1408 S8x1408x2048 S8x1024x2048 where
  lhsContracting := [2]
  rhsContracting := [1]
  lhsNonContracting := [1]
  rhsNonContracting := [2]
  lhsBatch := [0]
  rhsBatch := [0]
  wf := dot_S8x1024x1408_S8x1408x2048_S8x1024x2048_2_1_1_2_0_0_wf

class Facts : Prop extends Facts₀ where

variable [Facts]
-- ==== Proof.StepPieces.lean ====
/-
  What one grid step leaves behind, case by case, as the step's arithmetic.
  The six steps of a run share one accumulator block. The first step stores the zero block and then the update of it;
  each later step stores the update of what the step before left; the last step also stores the result block, the
  updated accumulator with a unit axis in front. Every store covers its whole buffer and every load reads a whole
  buffer, so what a buffer holds after the step is the one stored value, as a function of the blocks loaded.
-/
import proofs.«106435_j57054345560720_1_alg».proof.Proof.Gen.KernelIdeal.Frame
import Idealize.ShloMosaic.Lib.Pipeline.Value
import Idealize.ShloMosaic.Lib.Tactic

noncomputable section

namespace Cert.KernelIdeal.Bridge

open Cert.KernelIdeal Cert.KernelIdeal.Gen Idealize.ShloMosaic Idealize.ShloMosaic.TcCoe Idealize.ShloMosaic.Tactic Idealize.SL.Sem

variable {F : FTy → Type} [FloatOps F]

/-- A rectangle's offsets that are all zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a step that is neither the first nor the last of its run of six, the accumulator is left at the update of what
    it held: its one store covers it, and every load reads a whole block. -/
theorem sout_B (c : Dev nD) (i : grid0.Coords) (arg3 : Memref sig .tc .vmem S1x128x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : ¬cond0_1 i) (x0 : Vec F S1x128x2048 .f32) (x1 : Vec F S1x2048x256 .f32) (x2 : Vec F S1x2048x256 .f32) (x3 : Vec F S1x256x2048 .f32) (xs0 : Vec F S128x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread,
    View.ld_unit_zero (S := S1x128x2048) hz3, View.ld_unit_zero (S := S1x2048x256) hz3, View.ld_unit_zero (S := S1x256x2048) hz3,
    View.ld_unit_zero (S := S128x2048) hz2]

/-- At the first step of a run the accumulator is first stored the zero block whole, and the update then reads that
    zero block back: what it held before does not enter. -/
theorem sout_A (c : Dev nD) (i : grid0.Coords) (arg3 : Memref sig .tc .vmem S1x128x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x128x2048 .f32) (harg7 : arg7.IsWhole) (arg8 : Memref sig .tc .vmem S128x2048 .f32) (harg8 : arg8.IsWhole) (hc0 : cond0_0 i) (hc1 : ¬cond0_1 i) (x0 : Vec F S1x128x2048 .f32) (x1 : Vec F S1x2048x256 .f32) (x2 : Vec F S1x2048x256 .f32) (x3 : Vec F S1x256x2048 .f32) :
    sout0_A_0 c i arg3 harg3 arg4 harg4 arg5 harg5 arg6 harg6 arg7 harg7 arg8 harg8 hc0 hc1 x0 x1 x2 x3 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S128x2048) hz2, View.readCov_unit_zero (S := S128x2048) _ hz2]
  simp only [View.readAt_eq_ld, harg3.read_unread, harg4.read_unread, harg5.read_unread, harg6.read_unread, harg8.read_unread,
    View.ld_unit_zero (S := S1x128x2048) hz3, View.ld_unit_zero (S := S1x2048x256) hz3, View.ld_unit_zero (S := S1x256x2048) hz3,
    View.ld_unit_zero (S := S128x2048) hz2]

/-- At the last step of a run the accumulator is updated as at the middle steps, -/
theorem sout_C (c : Dev nD) (i : grid0.Coords) (arg3 : Memref sig .tc .vmem S1x128x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i) (x0 : Vec F S1x128x2048 .f32) (x1 : Vec F S1x2048x256 .f32) (x2 : Vec F S1x2048x256 .f32) (x3 : Vec F S1x256x2048 .f32) (xs0 : Vec F S128x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x128x2048) hz3, View.ld_unit_zero (S := S1x2048x256) hz3, View.ld_unit_zero (S := S1x256x2048) hz3,
    View.ld_unit_zero (S := S128x2048) hz2]

/-- and the result block is stored the updated accumulator, read back whole and given a unit axis in front. -/
theorem out_C (c : Dev nD) (i : grid0.Coords) (arg3 : Memref sig .tc .vmem S1x128x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S1x128x2048 .f32) (harg7 : arg7.IsWhole) (arg8 : Memref sig .tc .vmem S128x2048 .f32) (harg8 : arg8.IsWhole) (hc0 : ¬cond0_0 i) (hc1 : cond0_1 i) (x0 : Vec F S1x128x2048 .f32) (x1 : Vec F S1x2048x256 .f32) (x2 : Vec F S1x2048x256 .f32) (x3 : Vec F S1x256x2048 .f32) (xs0 : Vec F S128x2048 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread,
    View.readCov_unit_zero (S := S128x2048) _ hz2,
    View.ld_unit_zero (S := S1x128x2048) hz3, View.ld_unit_zero (S := S1x2048x256) hz3, View.ld_unit_zero (S := S1x256x2048) hz3,
    View.ld_unit_zero (S := S128x2048) hz2]

end Cert.KernelIdeal.Bridge

end
-- ==== Proof.SwigluSpec.lean ====
/-
  The gated feed-forward block, expert by expert, as one function of the four argument arrays.
  For expert e, token t and output feature n,
    out[e,t,n] = sum over j < 1408 of (g_j * logistic g_j) * u_j * down[e,j,n],
  where g_j = sum over k of x[e,t,k] * gate[e,k,j] and u_j = sum over k of x[e,t,k] * up[e,k,j].
  A summand is extended by zero to every natural j (the columns a zero padding adds contribute nothing),
  so that a sum taken in consecutive blocks of 256 over 6 * 256 = 1536 columns is the sum over the
  first 1408: addition of extended reals is commutative and associative, and nothing else is used.
-/
import Idealize.ShloMosaic.PureOps.Ideal.Laws
import Idealize.ShloMosaic.Lib.ValueIdx

noncomputable section

namespace Swiglu

open Idealize.ShloMosaic Idealize.ShloMosaic.ValueIdx

/-- Tokens and results: 8 experts, 1024 tokens, 2048 features. -/
abbrev SX : Shape := ⟨3, ![8, 1024, 2048]⟩
/-- Gate and up weights: 8 experts, 2048 features in, 1408 hidden. -/
abbrev SW : Shape := ⟨3, ![8, 2048, 1408]⟩
/-- Down weights: 8 experts, 1408 hidden, 2048 features out. -/
abbrev SD : Shape := ⟨3, ![8, 1408, 2048]⟩

/-- The gated activation of a gate logit g and an up logit u: (g * logistic g) * u. -/
def act (g u : EReal) : EReal := g * Ideal.logistic g * u

/-- Token t of expert e against hidden column j of a weight array. -/
def logit (x : SX.Idx → EReal) (w : SW.Idx → EReal) (e : Fin 8) (t : Fin 1024) (j : Fin 1408) : EReal :=
  ∑ k : Fin 2048, x (ix3 e t k) * w (ix3 e k j)

/-- Hidden column j's contribution to result (e, t, n); zero for j from 1408 on. -/
def term (x : SX.Idx → EReal) (gate up : SW.Idx → EReal) (down : SD.Idx → EReal)
    (e : Fin 8) (t : Fin 1024) (n : Fin 2048) (j : ℕ) : EReal :=
  if h : j < 1408 then act (logit x gate e t ⟨j, h⟩) (logit x up e t ⟨j, h⟩) * down (ix3 e ⟨j, h⟩ n) else 0

/-- Result (e, t, n): the sum of the 1408 hidden columns' contributions. -/
def outAt (x : SX.Idx → EReal) (gate up : SW.Idx → EReal) (down : SD.Idx → EReal)
    (e : Fin 8) (t : Fin 1024) (n : Fin 2048) : EReal :=
  ∑ j : Fin 1408, act (logit x gate e t j) (logit x up e t j) * down (ix3 e j n)

/-- The whole result array. -/
def out (x : SX.Idx → EReal) (gate up : SW.Idx → EReal) (down : SD.Idx → EReal) : SX.Idx → EReal :=
  fun i => outAt x gate up down (i 0) (i 1) (i 2)

theorem out_ix3 (x : SX.Idx → EReal) (gate up : SW.Idx → EReal) (down : SD.Idx → EReal)
    (e : Fin 8) (t : Fin 1024) (n : Fin 2048) : out x gate up down (ix3 e t n) = outAt x gate up down e t n := rfl

/-- The result as a sum of the extended summands over the first 1408 naturals. -/
theorem outAt_eq_range (x : SX.Idx → EReal) (gate up : SW.Idx → EReal) (down : SD.Idx → EReal)
    (e : Fin 8) (t : Fin 1024) (n : Fin 2048) :
    outAt x gate up down e t n = ∑ j ∈ Finset.range 1408, term x gate up down e t n j := by
  rw [Finset.sum_range]
  refine Finset.sum_congr rfl fun j _ => ?_
  unfold term
  rw [dif_pos j.isLt]

/-- A sum taken block by block, S blocks of B consecutive naturals, is the sum over the first B * S. -/
theorem sum_blocks {β : Type*} [AddCommMonoid β] (f : ℕ → β) (B : ℕ) :
    ∀ S : ℕ, ∑ s ∈ Finset.range S, ∑ jj ∈ Finset.range B, f (B * s + jj) = ∑ j ∈ Finset.range (B * S), f j
  | 0 => by simp
  | S + 1 => by
    rw [Finset.sum_range_succ, sum_blocks f B S, Nat.mul_succ, Finset.sum_range_add]

/-- Six blocks of 256 columns: the 128 columns from 1408 on contribute zero, and what is left is the result. -/
theorem blocks_eq_outAt (x : SX.Idx → EReal) (gate up : SW.Idx → EReal) (down : SD.Idx → EReal)
    (e : Fin 8) (t : Fin 1024) (n : Fin 2048) :
    ∑ s ∈ Finset.range 6, ∑ jj ∈ Finset.range 256, term x gate up down e t n (256 * s + jj)
      = outAt x gate up down e t n := by
  rw [sum_blocks, outAt_eq_range, show 256 * 6 = 1408 + 128 from rfl, Finset.sum_range_add]
  have hz : ∑ j ∈ Finset.range 128, term x gate up down e t n (1408 + j) = 0 :=
    Finset.sum_eq_zero fun j _ => by
      unfold term
      rw [dif_neg (by omega)]
  rw [hz, add_zero]

end Swiglu

end
-- ==== Proof.StepValue.lean ====
/-
  One grid step's arithmetic, entry by entry, on the extended reals.
  The zero block is zero everywhere. The step's update of the accumulator block adds, at row r and
  output feature n, the sum over the step's 256 hidden columns jj of
    (g * logistic g) * u * d[jj, n],   g = sum over k of a[r,k] * wg[k,jj],  u = sum over k of a[r,k] * wu[k,jj],
  where a is the token block, wg and wu the gate and up weight blocks and d the down weight block: a change of
  float format is the identity on the extended reals, and a matrix product into a zero accumulator is the plain sum
  of products over the contracted coordinate. The last payload only re-lays a [128, 2048] block as [1, 128, 2048].
-/
import proofs.«106435_j57054345560720_1_alg».proof.Proof.Gen.KernelIdeal.Skeleton
import proofs.«106435_j57054345560720_1_alg».proof.Proof.SwigluSpec
import Idealize.ShloMosaic.Lib.ValueIdx
import Idealize.ShloMosaic.Lib.Pipeline.Value
import Idealize.ShloMosaic.PureOps.Ideal.Laws
import Idealize.ShloMosaic.Lib.StackMember

noncomputable section

namespace Cert.KernelIdeal.Bridge

open Cert.KernelIdeal Cert.KernelIdeal.Gen Idealize.ShloMosaic Idealize.ShloMosaic.ValueIdx Idealize.ShloMosaic.TcCoe Idealize.SL.Sem

/-! ## The pieces: a unit axis dropped, and a matrix product into zero -/

/-- A [1, a, b] block viewed as an [a, b] matrix reads its entry (0, p, q) at (p, q): the two have the same
    row-major position. -/
private theorem dropUnit_ix2 {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) :=
  (shapeCast_dropUnit_apply ![a, b] v h (ix2 p q)).trans (congrArg v (StackMember.cons_ix2 _ p q))

/-- The plain product of an m×k by a k×n matrix into the zero block, at (a, b): the sum over the contracted
    coordinate c of the products of the entries (a, c) and (c, b). A product into a zero accumulator and a
    product with no accumulator are the same sum over the contraction's index set, and the latter is already read by
    coordinates. -/
private theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply _ prec A B _).trans
    ((Ideal.dotGeneral_apply (DotDims.plain m k n) prec HostSchedule.single A B (ix2 a b)).symm.trans
      (StackMember.dotGeneral_plain_apply prec A B a b))

/-- The [128, 2048] by [2048, 256] product of the step (its dimension numbers are the plain product's), into zero. -/
private theorem dot_in_apply (A : FVec Ideal S128x2048 .bf16) (B : FVec Ideal S2048x256 .bf16) (r : Fin 128) (jj : Fin 256) :
    matmul dot_S128x2048_S2048x256_S128x256_1_0_0_1_n_n none A B (constant (F := Ideal) S128x256 .f32 0x00000000#32) (ix2 r jj)
      = ∑ k : Fin 2048, A (ix2 r k) * B (ix2 k jj) :=
  matmul_plain_zero_apply none A B r jj

/-- The [128, 256] by [256, 2048] product of the step, into zero. -/
private theorem dot_out_apply (A : FVec Ideal S128x256 .bf16) (B : FVec Ideal S256x2048 .bf16) (r : Fin 128) (n : Fin 2048) :
    matmul dot_S128x256_S256x2048_S128x2048_1_0_0_1_n_n none A B (constant (F := Ideal) S128x2048 .f32 0x00000000#32) (ix2 r n)
      = ∑ jj : Fin 256, A (ix2 r jj) * B (ix2 jj n) :=
  matmul_plain_zero_apply none A B r n

/-- A logit of the step: the token block against a gate or up weight block, both with their unit axis dropped and
    their format changed, multiplied into zero; at row r and hidden column jj it is the sum over the 2048 features. -/
private theorem logit_apply (x : Vec Ideal S1x128x2048 .f32) (w : Vec Ideal S1x2048x256 .f32)
    (hx : S1x128x2048.ShapeCasts S128x2048) (hw : S1x2048x256.ShapeCasts S2048x256) (hb : FTy.bits .bf16 < FTy.bits .f32)
    (r : Fin 128) (jj : Fin 256) :
    matmul dot_S128x2048_S2048x256_S128x256_1_0_0_1_n_n none
        (truncf .bf16 (shapeCast S128x2048 x hx) hb : FVec Ideal S128x2048 .bf16)
        (truncf .bf16 (shapeCast S2048x256 w hw) hb : FVec Ideal S2048x256 .bf16)
        (constant (F := Ideal) S128x256 .f32 0x00000000#32) (ix2 r jj)
      = ∑ k : Fin 2048, x (ix3 0 r k) * w (ix3 0 k jj) := by
  refine (dot_in_apply _ _ r jj).trans ?_
  refine Finset.sum_congr rfl fun k _ => ?_
  exact congrArg₂ (· * ·) (dropUnit_ix2 x hx r k) (dropUnit_ix2 w hw k jj)

/-! ## The three payloads -/

/-- The block the accumulator is reset to is zero at every entry. -/
theorem pay1_apply (j : S128x2048.Idx) : k0_pay1 (F := Ideal) j = 0 := by
  unfold k0_pay1
  refine (congrFun (shapeCast_self _ _) j).trans ?_
  exact Ideal.ofBits_zero_f32

/-- The accumulator after one step, at row r and feature n: what it held plus the step's 256 hidden columns'
    contributions. -/
theorem pay2_apply (x0 : Vec Ideal S1x128x2048 .f32) (x1 x2 : Vec Ideal S1x2048x256 .f32) (x3 : Vec Ideal S1x256x2048 .f32)
    (acc : Vec Ideal S128x2048 .f32) (r : Fin 128) (n : Fin 2048) :
    k0_pay2 x0 x1 x2 x3 acc (ix2 r n) = acc (ix2 r n) + ∑ jj : Fin 256,
      Swiglu.act (∑ k : Fin 2048, x0 (ix3 0 r k) * x1 (ix3 0 k jj)) (∑ k : Fin 2048, x0 (ix3 0 r k) * x2 (ix3 0 k jj)) * x3 (ix3 0 jj n) := by
  unfold k0_pay2
  -- the outer cast keeps the shape; the sum with the accumulator is entrywise
  refine (congrFun (shapeCast_self _ _) (ix2 r n)).trans ?_
  refine (addf_apply _ _ _).trans ?_
  refine congrArg (acc (ix2 r n) + ·) ?_
  -- the last product, over the step's hidden columns
  refine (dot_out_apply _ _ r n).trans ?_
  refine Finset.sum_congr rfl fun jj _ => ?_
  refine congrArg₂ (· * ·) ?_ (dropUnit_ix2 x3 _ jj n)
  -- the activation: (g * logistic g) * u of the two logits
  have hg := logit_apply x0 x1 shapeCasts_S1x128x2048_S128x2048 shapeCasts_S1x2048x256_S2048x256 bitsLt_bf16_f32 r jj
  have hu := logit_apply x0 x2 shapeCasts_S1x128x2048_S128x2048 shapeCasts_S1x2048x256_S2048x256 bitsLt_bf16_f32 r jj
  refine Eq.trans ?_ (congrArg₂ Swiglu.act hg hu)
  rfl

/-- The result block is the accumulator block with a unit axis in front. -/
theorem pay3_apply (v : Vec Ideal S128x2048 .f32) (r : Fin 128) (n : Fin 2048) :
    k0_pay3 v (ix3 0 r n) = v (ix2 r n) := by
  unfold k0_pay3
  refine (shapeCast_addUnit_apply ![128, 2048] v _ (ix3 0 r n)).trans ?_
  refine congrArg v (funext fun a => ?_)
  match a with
  | ⟨0, _⟩ => rfl
  | ⟨1, _⟩ => rfl

end Cert.KernelIdeal.Bridge

end
-- ==== Proof.BlockReads.lean ====
/-
  Which entries of the argument arrays each block of a grid point holds.
  Point t of the 8 x 8 x 6 grid, counted row-major, is expert e = t / 48, token tile (t / 6) % 8 and hidden
  tile s = t % 6. Its token block is rows 128 * tile .. 128 * tile + 127 of expert e's tokens. Its gate and up
  blocks are hidden columns 256 s .. 256 s + 255 of expert e's weights padded with zero columns from 1408 to 1536,
  so entry (k, jj) is the weight at column 256 s + jj when that is below 1408 and zero otherwise; its down block
  is the same rows of expert e's down weights padded with zero rows.
-/
import proofs.«106435_j57054345560720_1_alg».proof.Proof.Gen.KernelIdeal.Frame
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Bridge

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The four input blocks of point t and the four argument arrays, each by its literal type. -/
abbrev blk0 (c : Dev nD) (t : Fin cfg0.N) : Vec Ideal S1x128x2048 .f32 := iblk m c 0 t
abbrev blk1 (c : Dev nD) (t : Fin cfg0.N) : Vec Ideal S1x2048x256 .f32 := iblk m c 1 t
abbrev blk2 (c : Dev nD) (t : Fin cfg0.N) : Vec Ideal S1x2048x256 .f32 := iblk m c 2 t
abbrev blk3 (c : Dev nD) (t : Fin cfg0.N) : Vec Ideal S1x256x2048 .f32 := iblk m c 3 t
abbrev argX (c : Dev nD) : Vec Ideal S8x1024x2048 .f32 := m ((c : Thread nD τ).loc main_arg0)
abbrev argG (c : Dev nD) : Vec Ideal S8x2048x1408 .f32 := m ((c : Thread nD τ).loc main_arg1)
abbrev argU (c : Dev nD) : Vec Ideal S8x2048x1408 .f32 := m ((c : Thread nD τ).loc main_arg2)
abbrev argD (c : Dev nD) : Vec Ideal S8x1408x2048 .f32 := m ((c : Thread nD τ).loc main_arg3)

/-- The grid has 8 * 8 * 6 = 384 points. -/
theorem N384 : cfg0.N = 384 := N_0

/-- The expert of point t. -/
def eOf (t : Fin cfg0.N) : Fin 8 := ⟨t.val / 48, by have := t.isLt; have := N384; omega⟩
/-- The token in row r of point t's token block. -/
def tokOf (t : Fin cfg0.N) (r : Fin 128) : Fin 1024 := ⟨128 * (t.val / 6 % 8) + r.val, by have := r.isLt; omega⟩

/-- The index maps of the four input windows at every point of the grid: the token window sits at block
    (expert, token tile, 0), the gate and up windows at (expert, 0, hidden tile), the down window at
    (expert, hidden tile, 0). -/
private theorem idx_facts : ∀ t : Fin cfg0.N,
    win0_0.index t (0 : Fin 3) = t.val / 48 ∧ win0_0.index t (1 : Fin 3) = t.val / 6 % 8 ∧ win0_0.index t (2 : Fin 3) = 0
    ∧ win0_1.index t (0 : Fin 3) = t.val / 48 ∧ win0_1.index t (1 : Fin 3) = 0 ∧ win0_1.index t (2 : Fin 3) = t.val % 6
    ∧ win0_2.index t (0 : Fin 3) = t.val / 48 ∧ win0_2.index t (1 : Fin 3) = 0 ∧ win0_2.index t (2 : Fin 3) = t.val % 6
    ∧ win0_3.index t (0 : Fin 3) = t.val / 48 ∧ win0_3.index t (1 : Fin 3) = t.val % 6 ∧ win0_3.index t (2 : Fin 3) = 0 :=
  (by decide +kernel : ∀ t : Fin grid0.N, _)

/-- Row r of the token block is token 128 * tile + r of the point's expert. -/
theorem blk0_apply (c : Dev nD) (t : Fin cfg0.N) (r : Fin 128) (k : Fin 2048) :
    blk0 m c t (ix3 0 r k) = argX m c (ix3 (eOf t) (tokOf t r) k) := by
  obtain ⟨e0, e1, e2, -⟩ := idx_facts t
  show V m c main_arg0 (((cfg0.win 0).blk t).view.emb (ix3 0 r k)) = _
  rw [V_main_arg0]
  show argX m c _ = _
  refine congrArg (argX m c) (funext fun a => Fin.ext ?_)
  match a with
  | ⟨0, _⟩ => show win0_0.index t (0 : Fin 3) * 1 + 1 * 0 = t.val / 48; omega
  | ⟨1, _⟩ => show win0_0.index t (1 : Fin 3) * 128 + 1 * r.val = 128 * (t.val / 6 % 8) + r.val; omega
  | ⟨2, _⟩ => show win0_0.index t (2 : Fin 3) * 2048 + 1 * k.val = k.val; omega

/-- The padding value: the integer zero converted is the real zero. -/
private theorem padValue_zero (i : S_.Idx) : (sitofp (F := Ideal) .f32 (constantI S_ 32 0#32) : Vec Ideal S_ .f32) i = 0 :=
  sitofp_zero

/-- The gate weights the kernel reads: the argument padded with 128 zero columns. -/
private theorem V_gate (c : Dev nD) :
    (V m c main_v0 : S8x2048x1536.Idx → EReal)
      = pad S8x2048x1536 ![0, 0, 0] ![0, 0, 128] ![0, 0, 0] (argG m c) (sitofp (F := Ideal) .f32 (constantI S_ 32 0#32))
          pads_S8x2048x1408_S8x2048x1536_000_000_01280 h_S_ := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The up weights the kernel reads: the argument padded with 128 zero columns. -/
private theorem V_up (c : Dev nD) :
    (V m c main_v1 : S8x2048x1536.Idx → EReal)
      = pad S8x2048x1536 ![0, 0, 0] ![0, 0, 128] ![0, 0, 0] (argU m c) (sitofp (F := Ideal) .f32 (constantI S_ 32 0#32))
          pads_S8x2048x1408_S8x2048x1536_000_000_01280 h_S_ := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The down weights the kernel reads: the argument padded with 128 zero rows. -/
private theorem V_down (c : Dev nD) :
    (V m c main_v2 : S8x1536x2048.Idx → EReal)
      = pad S8x1536x2048 ![0, 0, 0] ![0, 128, 0] ![0, 0, 0] (argD m c) (sitofp (F := Ideal) .f32 (constantI S_ 32 0#32))
          pads_S8x1408x2048_S8x1536x2048_000_01280_000 h_S_ := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- An array padded with 128 zero columns read at column j: the array there below column 1408, zero from it on. -/
private theorem padCols_read (x : Vec Ideal S8x2048x1408 .f32) (e : Fin 8) (k : Fin 2048) (j : ℕ) (hj : j < 1536) :
    pad S8x2048x1536 ![0, 0, 0] ![0, 0, 128] ![0, 0, 0] x (sitofp (F := Ideal) .f32 (constantI S_ 32 0#32))
        pads_S8x2048x1408_S8x2048x1536_000_000_01280 h_S_ (ix3 e k (⟨j, hj⟩ : Fin 1536))
      = if h : j < 1408 then x (ix3 e k ⟨j, h⟩) else 0 := by
  by_cases h : j < 1408
  · rw [dif_pos h]
    refine pad_apply_of_inside _ _ _ x _ _ _ _ (ix3 e k (⟨j, h⟩ : Fin 1408)) fun a => ?_
    match a with
    | ⟨0, _⟩ => show e.val = 0 + e.val * (0 + 1); omega
    | ⟨1, _⟩ => show k.val = 0 + k.val * (0 + 1); omega
    | ⟨2, _⟩ => show j = 0 + j * (0 + 1); omega
  · rw [dif_neg h]
    refine (pad_apply_of_not_inside _ _ _ x _ _ _ _ (2 : Fin 3) ?_).trans (padValue_zero _)
    rintro ⟨-, -, h3⟩
    have h3' : (j - 0) / (0 + 1) < 1408 := h3
    omega

/-- An array padded with 128 zero rows read at row j: the array there below row 1408, zero from it on. -/
private theorem padRows_read (x : Vec Ideal S8x1408x2048 .f32) (e : Fin 8) (j : ℕ) (hj : j < 1536) (n : Fin 2048) :
    pad S8x1536x2048 ![0, 0, 0] ![0, 128, 0] ![0, 0, 0] x (sitofp (F := Ideal) .f32 (constantI S_ 32 0#32))
        pads_S8x1408x2048_S8x1536x2048_000_01280_000 h_S_ (ix3 e (⟨j, hj⟩ : Fin 1536) n)
      = if h : j < 1408 then x (ix3 e ⟨j, h⟩ n) else 0 := by
  by_cases h : j < 1408
  · rw [dif_pos h]
    refine pad_apply_of_inside _ _ _ x _ _ _ _ (ix3 e (⟨j, h⟩ : Fin 1408) n) fun a => ?_
    match a with
    | ⟨0, _⟩ => show e.val = 0 + e.val * (0 + 1); omega
    | ⟨1, _⟩ => show j = 0 + j * (0 + 1); omega
    | ⟨2, _⟩ => show n.val = 0 + n.val * (0 + 1); omega
  · rw [dif_neg h]
    refine (pad_apply_of_not_inside _ _ _ x _ _ _ _ (1 : Fin 3) ?_).trans (padValue_zero _)
    rintro ⟨-, -, h3⟩
    have h3' : (j - 0) / (0 + 1) < 1408 := h3
    omega

/-- The hidden column (or row) 256 s + jj of a point stays inside the padded axis. -/
private theorem hid_lt (t : Fin cfg0.N) (jj : Fin 256) : 256 * (t.val % 6) + jj.val < 1536 := by
  have := jj.isLt; omega

/-- Column jj of the gate block is hidden column 256 s + jj of the point's expert, zero from column 1408 on. -/
theorem blk1_apply (c : Dev nD) (t : Fin cfg0.N) (k : Fin 2048) (jj : Fin 256) :
    blk1 m c t (ix3 0 k jj) = if h : 256 * (t.val % 6) + jj.val < 1408 then argG m c (ix3 (eOf t) k ⟨256 * (t.val % 6) + jj.val, h⟩) else 0 := by
  obtain ⟨-, -, -, e0, e1, e2, -⟩ := idx_facts t
  have hi : ((cfg0.win 1).blk t).view.emb (ix3 0 k jj) = ix3 (eOf t) k (⟨256 * (t.val % 6) + jj.val, hid_lt t jj⟩ : Fin 1536) := by
    funext a; apply Fin.ext
    match a with
    | ⟨0, _⟩ => show win0_1.index t (0 : Fin 3) * 1 + 1 * 0 = t.val / 48; omega
    | ⟨1, _⟩ => show win0_1.index t (1 : Fin 3) * 2048 + 1 * k.val = k.val; omega
    | ⟨2, _⟩ => show win0_1.index t (2 : Fin 3) * 256 + 1 * jj.val = 256 * (t.val % 6) + jj.val; omega
  show (V m c main_v0 : S8x2048x1536.Idx → EReal) (((cfg0.win 1).blk t).view.emb (ix3 0 k jj)) = _
  rw [hi, V_gate, padCols_read]

/-- The same for the up block. -/
theorem blk2_apply (c : Dev nD) (t : Fin cfg0.N) (k : Fin 2048) (jj : Fin 256) :
    blk2 m c t (ix3 0 k jj) = if h : 256 * (t.val % 6) + jj.val < 1408 then argU m c (ix3 (eOf t) k ⟨256 * (t.val % 6) + jj.val, h⟩) else 0 := by
  obtain ⟨-, -, -, -, -, -, e0, e1, e2, -⟩ := idx_facts t
  have hi : ((cfg0.win 2).blk t).view.emb (ix3 0 k jj) = ix3 (eOf t) k (⟨256 * (t.val % 6) + jj.val, hid_lt t jj⟩ : Fin 1536) := by
    funext a; apply Fin.ext
    match a with
    | ⟨0, _⟩ => show win0_2.index t (0 : Fin 3) * 1 + 1 * 0 = t.val / 48; omega
    | ⟨1, _⟩ => show win0_2.index t (1 : Fin 3) * 2048 + 1 * k.val = k.val; omega
    | ⟨2, _⟩ => show win0_2.index t (2 : Fin 3) * 256 + 1 * jj.val = 256 * (t.val % 6) + jj.val; omega
  show (V m c main_v1 : S8x2048x1536.Idx → EReal) (((cfg0.win 2).blk t).view.emb (ix3 0 k jj)) = _
  rw [hi, V_up, padCols_read]

/-- Row jj of the down block is hidden row 256 s + jj of the point's expert, zero from row 1408 on. -/
theorem blk3_apply (c : Dev nD) (t : Fin cfg0.N) (jj : Fin 256) (n : Fin 2048) :
    blk3 m c t (ix3 0 jj n) = if h : 256 * (t.val % 6) + jj.val < 1408 then argD m c (ix3 (eOf t) ⟨256 * (t.val % 6) + jj.val, h⟩ n) else 0 := by
  obtain ⟨-, -, -, -, -, -, -, -, -, e0, e1, e2⟩ := idx_facts t
  have hi : ((cfg0.win 3).blk t).view.emb (ix3 0 jj n) = ix3 (eOf t) (⟨256 * (t.val % 6) + jj.val, hid_lt t jj⟩ : Fin 1536) n := by
    funext a; apply Fin.ext
    match a with
    | ⟨0, _⟩ => show win0_3.index t (0 : Fin 3) * 1 + 1 * 0 = t.val / 48; omega
    | ⟨1, _⟩ => show win0_3.index t (1 : Fin 3) * 256 + 1 * jj.val = 256 * (t.val % 6) + jj.val; omega
    | ⟨2, _⟩ => show win0_3.index t (2 : Fin 3) * 2048 + 1 * n.val = n.val; omega
  show (V m c main_v2 : S8x1536x2048.Idx → EReal) (((cfg0.win 3).blk t).view.emb (ix3 0 jj n)) = _
  rw [hi, V_down, padRows_read]

end Cert.KernelIdeal.Bridge

end
-- ==== Proof.GridFold.lean ====
/-
  The accumulator across a run of six grid steps.
  Step n adds to the accumulator, at row r and feature n', the contributions of its 256 hidden columns (its
  addend); the first step of a run starts from the zero block. So after the step at offset j of its run the
  accumulator holds the sum of the addends of the run's steps 0 .. j. A step's addend at (r, n') is the sum of the
  specification's summands for hidden columns 256 s .. 256 s + 255 of the step's expert and of token 128 * tile + r:
  below column 1408 the blocks hold the argument arrays' entries, and from 1408 on the down block's row is zero, so
  the product is zero whatever the activation is. After a run's last step the accumulator therefore holds the
  specification's result for the run's expert and tokens.
-/
import proofs.«106435_j57054345560720_1_alg».proof.Proof.Gen.KernelIdeal.Value
import proofs.«106435_j57054345560720_1_alg».proof.Proof.StepPieces
import proofs.«106435_j57054345560720_1_alg».proof.Proof.StepValue
import proofs.«106435_j57054345560720_1_alg».proof.Proof.BlockReads
import proofs.«106435_j57054345560720_1_alg».proof.Proof.SwigluSpec
import Idealize.ShloMosaic.Lib.Pipeline.Value

noncomputable section

namespace Cert.KernelIdeal.Bridge

open Cert.KernelIdeal Cert.KernelIdeal.Gen Cert.KernelIdeal.Value Idealize.ShloMosaic Idealize.ShloMosaic.ValueIdx
open Idealize.ShloMosaic.TcCoe Idealize.SL.Sem

variable (m : (ℓ : Loc nD τ sig) → Buf (Elt Ideal) ℓ)

/-- What step n leaves in the accumulator over what the step before left: the update of the zero block at the first
    step of a run, of what the step before left at the others. -/
theorem scAt_eq (c : Dev nD) (n : ℕ) (hb : n < cfg0.N) (acc : Vec Ideal S128x2048 .f32) :
    scAt0_0 m c n hb acc
      = k0_pay2 (blk0 m c ⟨n, hb⟩) (blk1 m c ⟨n, hb⟩) (blk2 m c ⟨n, hb⟩) (blk3 m c ⟨n, hb⟩) (if n % 6 = 0 then k0_pay1 (F := Ideal) else acc) := by
  unfold scAt0_0
  by_cases h0 : n % 6 = 0
  · have h1 : ¬n % 6 = 5 := by omega
    rw [dif_pos h0, dif_neg h1, if_pos h0]
    exact sout_A (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) _ _ (iblk m c 0 ⟨n, hb⟩) (iblk m c 1 ⟨n, hb⟩) (iblk m c 2 ⟨n, hb⟩) (iblk m c 3 ⟨n, hb⟩)
  · rw [dif_neg h0, if_neg h0]
    by_cases h1 : n % 6 = 5
    · rw [dif_pos h1]
      exact sout_C (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) _ _ (iblk m c 0 ⟨n, hb⟩) (iblk m c 1 ⟨n, hb⟩) (iblk m c 2 ⟨n, hb⟩) (iblk m c 3 ⟨n, hb⟩) acc
    · rw [dif_neg h1]
      exact sout_B (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _) _ _ (iblk m c 0 ⟨n, hb⟩) (iblk m c 1 ⟨n, hb⟩) (iblk m c 2 ⟨n, hb⟩) (iblk m c 3 ⟨n, hb⟩) acc

/-- Step n's addend at an entry of the accumulator: its 256 hidden columns' contributions (zero past the grid). -/
def addend (c : Dev nD) (n : ℕ) (i : S128x2048.Idx) : EReal :=
  if h : n < cfg0.N then
    ∑ jj : Fin 256, Swiglu.act (∑ k : Fin 2048, blk0 m c ⟨n, h⟩ (ix3 0 (i 0) k) * blk1 m c ⟨n, h⟩ (ix3 0 k jj))
        (∑ k : Fin 2048, blk0 m c ⟨n, h⟩ (ix3 0 (i 0) k) * blk2 m c ⟨n, h⟩ (ix3 0 k jj)) * blk3 m c ⟨n, h⟩ (ix3 0 jj (i 1))
  else 0

/-- The update adds the step's addend, entry by entry. -/
theorem update_apply (c : Dev nD) (n : ℕ) (hb : n < cfg0.N) (acc : Vec Ideal S128x2048 .f32) (i : S128x2048.Idx) :
    k0_pay2 (blk0 m c ⟨n, hb⟩) (blk1 m c ⟨n, hb⟩) (blk2 m c ⟨n, hb⟩) (blk3 m c ⟨n, hb⟩) acc i = acc i + addend m c n i := by
  obtain ⟨r, n', rfl⟩ : ∃ (r : Fin 128) (n' : Fin 2048), i = ix2 r n' := ⟨i 0, i 1, eq_ix2 i⟩
  rw [pay2_apply]
  unfold addend
  rw [dif_pos hb]

/-- THE FOLD: after the step at point t the accumulator holds the sum of the addends of its run's steps up to t. -/
theorem acc_after (c : Dev nD) (t : Fin cfg0.N) (i : S128x2048.Idx) :
    (outsAt0 m c t.val t.isLt).2 i = ∑ s ∈ Finset.range (t.val % 6 + 1), addend m c (6 * (t.val / 6) + s) i := by
  rw [soutsAt0_0_eq m c t]
  have hN : cfg0.N = 384 := N384
  have ht := t.isLt
  refine (Pipeline.accAt_add_apply (fun n h => scAt0_0 m c n h (VS0_0.read (Elt Ideal) VS0_0.junk)) (scAt0_0 m c)
    (fun _ => (0 : EReal)) (addend m c) (6 * (t.val / 6)) 5 ?_ ?_ (t.val % 6) (by omega) _ i).trans (zero_add _)
  · intro h j
    rw [scAt_eq, if_pos (Nat.mul_mod_right 6 _), update_apply, pay1_apply]
  · intro n h acc j hlo hhi
    have hne : ¬n % 6 = 0 := by omega
    rw [scAt_eq, if_neg hne, update_apply]

/-- A step's addend is 256 consecutive summands of the specification: hidden columns 256 s .. 256 s + 255 of the
    step's expert and token. -/
theorem addend_eq (c : Dev nD) (t : Fin cfg0.N) (r : Fin 128) (n' : Fin 2048) :
    addend m c t.val (ix2 r n')
      = ∑ jj ∈ Finset.range 256, Swiglu.term (argX m c) (argG m c) (argU m c) (argD m c) (eOf t) (tokOf t r) n' (256 * (t.val % 6) + jj) := by
  unfold addend
  rw [dif_pos t.isLt, Finset.sum_range]
  refine Finset.sum_congr rfl fun jj _ => ?_
  simp only [Fin.eta]
  show Swiglu.act (∑ k : Fin 2048, blk0 m c t (ix3 0 r k) * blk1 m c t (ix3 0 k jj))
      (∑ k : Fin 2048, blk0 m c t (ix3 0 r k) * blk2 m c t (ix3 0 k jj)) * blk3 m c t (ix3 0 jj n') = _
  unfold Swiglu.term
  by_cases hj : 256 * (t.val % 6) + jj.val < 1408
  · rw [dif_pos hj, blk3_apply, dif_pos hj]
    unfold Swiglu.logit
    congr 2
    · exact Finset.sum_congr rfl fun k _ => by rw [blk0_apply, blk1_apply, dif_pos hj]
    · exact Finset.sum_congr rfl fun k _ => by rw [blk0_apply, blk2_apply, dif_pos hj]
  · rw [dif_neg hj, blk3_apply, dif_neg hj, mul_zero]

/-- After the last step of a run the accumulator holds the specification's result for the run's expert and tokens. -/
theorem acc_last (c : Dev nD) (t : Fin cfg0.N) (h5 : t.val % 6 = 5) (r : Fin 128) (n' : Fin 2048) :
    (outsAt0 m c t.val t.isLt).2 (ix2 r n')
      = Swiglu.outAt (argX m c) (argG m c) (argU m c) (argD m c) (eOf t) (tokOf t r) n' := by
  have hN : cfg0.N = 384 := N384
  have ht := t.isLt
  rw [acc_after, h5, ← Swiglu.blocks_eq_outAt]
  refine Finset.sum_congr rfl fun s hs => ?_
  have hs6 : s < 6 := Finset.mem_range.mp hs
  have hlt : 6 * (t.val / 6) + s < cfg0.N := by omega
  refine (addend_eq m c ⟨6 * (t.val / 6) + s, hlt⟩ r n').trans ?_
  have e1 : eOf ⟨6 * (t.val / 6) + s, hlt⟩ = eOf t := Fin.ext (by simp only [eOf]; omega)
  have e2 : tokOf ⟨6 * (t.val / 6) + s, hlt⟩ r = tokOf t r := Fin.ext (by simp only [tokOf]; omega)
  have e3 : (6 * (t.val / 6) + s) % 6 = s := by omega
  rw [e1, e2]
  simp only [e3]

end Cert.KernelIdeal.Bridge

end
-- ==== Proof.ResultArray.lean ====
/-
  The result array after the run.
  The result block is written back only after the last step of each run of six, and it is then the accumulator with a
  unit axis in front; by the fold that is the specification's result for the run's expert and its 128 tokens. The run
  of expert e and token tile q writes block (e, q, 0) of the result array, of extents [1, 128, 2048], so entry
  (0, r, n) of the block is entry (e, 128 q + r, n) of the array; the 64 runs' blocks tile the array: index (e, t, n)
  lies in the block of expert e and tile t / 128. So the array ends holding the specification everywhere.
-/
import proofs.«106435_j57054345560720_1_alg».proof.Proof.Gen.KernelIdeal.Value
import proofs.«106435_j57054345560720_1_alg».proof.Proof.GridFold
import Idealize.ShloMosaic.Lib.Pipeline.Value

noncomputable section

namespace Cert.KernelIdeal.Bridge

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The result window's block at point t is block (t / 48, (t / 6) % 8, 0): decided over the grid. -/
theorem out_idx : ∀ t : Fin cfg0.N, win0_4.index t (0 : Fin 3) = t.val / 48 ∧ win0_4.index t (1 : Fin 3) = t.val / 6 % 8
    ∧ win0_4.index t (2 : Fin 3) = 0 :=
  (by decide +kernel : ∀ t : Fin grid0.N, _)

/-- The re-laid block at any index (0, r, n) is the accumulator at (r, n). -/
theorem pay3_read (v : Vec Ideal S128x2048 .f32) (y : S1x128x2048.Idx) : k0_pay3 v y = v (ix2 (y 1) (y 2)) := by
  have hy : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  exact (congrArg (k0_pay3 v) hy).trans (pay3_apply v (y 1) (y 2))

/-- After the last step of a run the result block is the accumulator, re-laid. -/
theorem out_block (c : Dev nD) (t : Fin cfg0.N) (h5 : t.val % 6 = 5) :
    (outsAt0 m c t.val t.isLt).1 = k0_pay3 ((outsAt0 m c t.val t.isLt).2) := by
  have h0 : ¬t.val % 6 = 0 := by omega
  rw [outsAt0_C m c t h0 h5]
  dsimp only
  exact (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)
      (outsAt0 m c (t.val - 1) (Nat.lt_of_le_of_lt (Nat.sub_le _ _) t.isLt)).2).trans
    (congrArg k0_pay3 (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)
      (outsAt0 m c (t.val - 1) (Nat.lt_of_le_of_lt (Nat.sub_le _ _) t.isLt)).2).symm)

/-- Entry y of the result block of a run's last point is the specification at the array index i with the same
    feature, the run's expert, and token 128 * tile + the block's row. -/
theorem block_value (c : Dev nD) (t : Fin cfg0.N) (h5 : t.val % 6 = 5) (y : S1x128x2048.Idx) (i : S8x1024x2048.Idx)
    (h0 : (i 0).val = t.val / 48) (h1 : (i 1).val = 128 * (t.val / 6 % 8) + (y 1).val) (h2 : (i 2).val = (y 2).val) :
    k0_pay3 ((outsAt0 m c t.val t.isLt).2) y = (Swiglu.out (argX m c) (argG m c) (argU m c) (argD m c)) i := by
  refine (pay3_read _ y).trans ((acc_last m c t h5 (y 1) (y 2)).trans ?_)
  have hc : ∀ (a a' : Fin 8) (b b' : Fin 1024) (d d' : Fin 2048), a = a' → b = b' → d = d' →
      Swiglu.outAt (argX m c) (argG m c) (argU m c) (argD m c) a b d
        = Swiglu.outAt (argX m c) (argG m c) (argU m c) (argD m c) a' b' d' := by
    intro a a' b b' d d' ha hb hd
    rw [ha, hb, hd]
  exact hc (eOf t) (i 0) (tokOf t (y 1)) (i 1) (y 2) (i 2)
    (Fin.ext (by show t.val / 48 = (i 0).val; omega))
    (Fin.ext (by show 128 * (t.val / 6 % 8) + (y 1).val = (i 1).val; omega))
    (Fin.ext h2.symm)

/-- WHAT A FLUSHING POINT WRITES BACK is its block of the specification. -/
theorem flushed_eq (c : Dev nD) (t : Fin cfg0.N) (hf : (cfg0.win 4).flush t = true) :
    (dats m 0 c).flushed 4 t = ((cfg0.win 4).blk t).view.read (Elt Ideal) (Swiglu.out (argX m c) (argG m c) (argU m c) (argD m c)) := by
  have h5 : t.val % 6 = 5 := (flush0_4 t).mp hf
  rw [flushed4 m c t, out_block m c t h5]
  obtain ⟨i0, i1, i2⟩ := out_idx t
  funext j
  have hj0 : (j 0).val < 1 := (j 0).isLt
  have hj1 : (j 1).val < 128 := (j 1).isLt
  have hj2 : (j 2).val < 2048 := (j 2).isLt
  refine block_value m c t h5 j (((cfg0.win 4).blk t).view.emb j) ?_ ?_ ?_
  · show win0_4.index t (0 : Fin 3) * 1 + 1 * (j 0).val = t.val / 48
    omega
  · show win0_4.index t (1 : Fin 3) * 128 + 1 * (j 1).val = 128 * (t.val / 6 % 8) + (j 1).val
    omega
  · show win0_4.index t (2 : Fin 3) * 2048 + 1 * (j 2).val = (j 2).val
    omega

/-- An index of the array is in point t's block iff each coordinate is in the block's range on its axis. -/
theorem mem_blk (t : Fin cfg0.N) (i : S8x1024x2048.Idx) :
    i ∈ ((cfg0.win 4).blk t).view.set ↔ ∀ a : Fin 3, win0_4.index t a * S1x128x2048.size a ≤ (i a).val
      ∧ (i a).val < win0_4.index t a * S1x128x2048.size a + S1x128x2048.size a := by
  show i ∈ ((View.whole main_v3).slice (win0_4.rect t)).set ↔ _
  rw [View.set_slice_whole, Rect.mem_set_unit]
  exact Iff.rfl

/-- THE COVER: index (e, t, n) lies in the block written back after the run of expert e and token tile t / 128. -/
theorem cover (i : S8x1024x2048.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 2048 := (i 2).isLt
  have hN : cfg0.N = 384 := N384
  obtain ⟨t, ht⟩ : ∃ t : Fin cfg0.N, t.val = 48 * (i 0).val + 6 * ((i 1).val / 128) + 5 := ⟨⟨_, by omega⟩, rfl⟩
  obtain ⟨e0, e1, e2⟩ := out_idx t
  refine ⟨t, (flush0_4 t).mpr (by omega), ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 2048 ≤ (i 2).val ∧ (i 2).val < win0_4.index t (2 : Fin 3) * 2048 + 2048
    omega

/-- THE ARRAY after the run is the specification of the argument arrays. -/
theorem final (c : Dev nD) : (dats m 0 c).arrAt 4 cfg0.N = (Swiglu.out (argX m c) (argG m c) (argU m c) (argD m c)) :=
  (dats m 0 c).arrAt_eq_of_cover 4 (Swiglu.out (argX m c) (argG m c) (argU m c) (argD m c)) (flushed_eq m c) cover

/-- The run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v3) = (Swiglu.out (argX m c) (argG m c) (argU m c) (argD m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Bridge

end
-- ==== Proof.RefValue.lean ====
/-
  The reference computes the specification.
  Its three batched products are, entry by entry, sums of products over the contracted coordinate; its gated
  activation spells the logistic function out as 1 / (1 + exp (-g)), which on the extended reals is the logistic
  function itself (the literal one is the real number 1). So the composed term of the reference's run is, at every
  index (e, t, n), the sum over the 1408 hidden columns of (g * logistic g) * u * down[e, j, n].
-/
import proofs.«106435_j57054345560720_1_alg».proof.Proof.Gen.ReferenceIdeal.Run
import proofs.«106435_j57054345560720_1_alg».proof.Proof.SwigluSpec
import Idealize.ShloMosaic.Lib.ValueIdx
import Idealize.ShloMosaic.Lib.StackMember
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The literal 0x3F800000 is the real number one. -/
private theorem one_lit : Ideal.ofBits .f32 0x3F800000#32 = 1 := by
  simp [Ideal.ofBits, Ideal.ieee, -EReal.coe_mul]; norm_num

/-- Tokens by a weight array: entry (e, t, j) is the sum over the 2048 input features. -/
private theorem dotIn_apply (A : FVec Ideal S8x1024x2048 .f32) (B : FVec Ideal S8x2048x1408 .f32)
    (e : Fin 8) (t : Fin 1024) (j : Fin 1408) :
    Host.dotGeneral dot_S8x1024x2048_S8x2048x1408_S8x1024x1408_2_1_1_2_0_0 none A B (ix3 e t j)
      = ∑ k : Fin 2048, A (ix3 e t k) * B (ix3 e k j) :=
  StackMember.dotGeneral_stack_apply Facts₀.dot_S8x1024x2048_S8x2048x1408_S8x1024x1408_2_1_1_2_0_0_wf none A B e t j

/-- Hidden activations by the down weights: entry (e, t, n) is the sum over the 1408 hidden columns. -/
private theorem dotOut_apply (A : FVec Ideal S8x1024x1408 .f32) (B : FVec Ideal S8x1408x2048 .f32)
    (e : Fin 8) (t : Fin 1024) (n : Fin 2048) :
    Host.dotGeneral dot_S8x1024x1408_S8x1408x2048_S8x1024x2048_2_1_1_2_0_0 none A B (ix3 e t n)
      = ∑ j : Fin 1408, A (ix3 e t j) * B (ix3 e j n) :=
  StackMember.dotGeneral_stack_apply Facts₀.dot_S8x1024x1408_S8x1408x2048_S8x1024x2048_2_1_1_2_0_0_wf none A B e t n

/-- The spelt-out quotient 1 / (1 + exp (-g)), read at an index, is the logistic function of the entry: the two
    broadcast literals are the number one, and the logistic function is by definition that quotient. -/
private theorem sigmoid_apply (g : FVec Ideal S8x1024x1408 .f32) (i : S8x1024x1408.Idx) :
    Host.divf (broadcastInDim S8x1024x1408 ![] bcast_S_S8x1024x1408 (constant (F := Ideal) S_ .f32 0x3F800000#32))
        (addf (broadcastInDim S8x1024x1408 ![] bcast_S_S8x1024x1408 (constant (F := Ideal) S_ .f32 0x3F800000#32))
          (Host.exp (Host.negf g))) i
      = Ideal.logistic (g i) := by
  show Ideal.div (Ideal.ofBits .f32 0x3F800000#32) (Ideal.ofBits .f32 0x3F800000#32 + Ideal.exp (-(g i))) = _
  rw [one_lit]
  rfl

/-- The reference run's result term, at the extended reals, is the specification of the argument arrays. -/
theorem result_eq (x : FVec Ideal S8x1024x2048 .f32) (gate up : FVec Ideal S8x2048x1408 .f32) (down : FVec Ideal S8x1408x2048 .f32) :
    Host.dotGeneral dot_S8x1024x1408_S8x1408x2048_S8x1024x2048_2_1_1_2_0_0 none
      (mulf (mulf (Host.dotGeneral dot_S8x1024x2048_S8x2048x1408_S8x1024x1408_2_1_1_2_0_0 none x gate)
          (Host.divf (broadcastInDim S8x1024x1408 ![] bcast_S_S8x1024x1408 (constant S_ .f32 0x3F800000#32))
            (addf (broadcastInDim S8x1024x1408 ![] bcast_S_S8x1024x1408 (constant S_ .f32 0x3F800000#32))
              (Host.exp (Host.negf (Host.dotGeneral dot_S8x1024x2048_S8x2048x1408_S8x1024x1408_2_1_1_2_0_0 none x gate))))))
        (Host.dotGeneral dot_S8x1024x2048_S8x2048x1408_S8x1024x1408_2_1_1_2_0_0 none x up)) down
    = Swiglu.out x gate up down := by
  funext i
  obtain ⟨e, t, n, rfl⟩ : ∃ (e : Fin 8) (t : Fin 1024) (n : Fin 2048), i = ix3 e t n := ⟨i 0, i 1, i 2, eq_ix3 i⟩
  -- the outer product is a sum over the hidden columns, and so is the specification: compare column by column
  rw [dotOut_apply, Swiglu.out_ix3]
  unfold Swiglu.outAt
  refine Finset.sum_congr rfl fun j _ => ?_
  -- column j: (g * logistic g) * u, with g and u the two inner sums over the input features
  rw [mulf_apply, mulf_apply, sigmoid_apply, dotIn_apply, dotIn_apply]
  rfl

end Cert.ReferenceIdeal.RefValue

end
-- ==== Proof.lean ====
/-
  A per-expert gated feed-forward block against its einsum form, over the extended reals.
  Both programs compute, for expert e, token t and output feature n,
    out[e,t,n] = sum over the 1408 hidden columns j of (g_j * logistic g_j) * u_j * down[e,j,n],
  g_j and u_j the token's products with column j of the gate and up weights. The reference takes the three
  products whole and spells the logistic function as 1 / (1 + exp (-g)), which is the logistic function. The kernel
  pads the hidden axis with zeros to 1536 columns and, for each expert and each tile of 128 tokens, accumulates the
  last product over six steps of 256 hidden columns from a zero block, writing the block back after the sixth. A
  change of float format is the identity on the extended reals and a matrix product into zero is a plain sum of
  products, so a step adds exactly its 256 columns' summands; the summands of the padded columns are products with a
  zero row of the padded down weights, hence zero; and a sum over six consecutive blocks of 256 columns whose last
  128 summands vanish is the sum over the first 1408, addition of extended reals being commutative and associative.
  The 64 written blocks tile the result array. No finiteness of the inputs is used.
  The three programs' runs terminate without fault and leave the arguments unchanged: for the two kernel programs
  this is the generated frame, for the reference its generated run. The idealization rewrote nothing.
-/
import proofs.«106435_j57054345560720_1_alg».proof.Defs
import proofs.«106435_j57054345560720_1_alg».proof.Proof.Gen.Kernel
import proofs.«106435_j57054345560720_1_alg».proof.Proof.Gen.Kernel.Skeleton
import proofs.«106435_j57054345560720_1_alg».proof.Proof.Gen.Kernel.Launch
import proofs.«106435_j57054345560720_1_alg».proof.Proof.Gen.Kernel.Points
import proofs.«106435_j57054345560720_1_alg».proof.Proof.Gen.Kernel.Frame
import proofs.«106435_j57054345560720_1_alg».proof.Proof.Gen.KernelIdeal
import proofs.«106435_j57054345560720_1_alg».proof.Proof.Gen.KernelIdeal.Skeleton
import proofs.«106435_j57054345560720_1_alg».proof.Proof.Gen.KernelIdeal.Launch
import proofs.«106435_j57054345560720_1_alg».proof.Proof.Gen.KernelIdeal.Points
import proofs.«106435_j57054345560720_1_alg».proof.Proof.Gen.KernelIdeal.Frame
import proofs.«106435_j57054345560720_1_alg».proof.Proof.Gen.ReferenceIdeal
import proofs.«106435_j57054345560720_1_alg».proof.Proof.Gen.Pre_finite_inputs
import proofs.«106435_j57054345560720_1_alg».proof.Proof.Gen.KernelIdeal.Value
import proofs.«106435_j57054345560720_1_alg».proof.Proof.Gen.ReferenceIdeal.Run
import proofs.«106435_j57054345560720_1_alg».proof.Proof.ResultArray
import proofs.«106435_j57054345560720_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at the
    specification of those arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
